-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S100000x128 .f32) (main_arg2 : FVec F S128x128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S5000x128 : Shape := ⟨2, ![5000, 128]⟩

abbrev nBuf : Space → Nat
  | .hbm => 61
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S128x128, .bf16⟩
  | .hbm, ⟨60, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S5000x128, .f32⟩
  | .local _ .vmem, ⟨6, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v43) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.Tail.lean ====
/-
  The dense tail of one graph-convolution layer, entry by entry.

  Let A be the aggregated neighbour features and X the initial features, both with n rows of 128 entries, and W the
  128 × 128 weight. With the layer's four constants c₁, c₂, d₁, d₂ (the f32 numbers nearest 0.9, 0.1, 1 − log 1.5 and
  log 1.5; they are kept as their bit patterns, the same four words in both programs, so their values never matter)
  the layer forms

      H = c₁ · A + c₂ · X          the initial-residual combination,
      R = d₁ · H + d₂ · (H W)      the identity-mapped linear transform.

  Entry (r, j) of R depends on row r of A and of X only:

      R (r, j) = d₁ · H (r, j) + d₂ · ∑ q, H (r, q) · W (q, j).

  That is `entry`; `tail n` is the whole n-row result. An array computed as d₁ · H + d₂ · P, where H is the
  combination above and P is at every entry the sum over q of H (r, q) · W (q, j), is `tail` (`tail_of_product`):
  this is all that the two ways of computing R which occur have to be shown to be, the product P being once a product
  into a zero accumulator over rows narrowed to bf16 (at the ideal values narrowing changes nothing:
  `tail_of_matmul`) and once the host's product. No law of the extended reals is used beyond reading a product at
  an entry as that sum, so the inputs' finiteness plays no part.
-/
import Idealize.ShloMosaic.PureOps.Ideal.Laws
import Idealize.ShloMosaic.Lib.ValueIdx
import proofs.«152735_j37022618092149_1_alg».proof.Proof.LibDotPlain

noncomputable section

open scoped BigOperators

namespace Cert.Tail

open Idealize.ShloMosaic Idealize.ShloMosaic.ValueIdx

variable {n : Nat}

/-- The initial-residual combination of one aggregated entry `a` with one initial entry `x`: c₁ · a + c₂ · x. -/
def mix (a x : EReal) : EReal :=
  Ideal.ofBits .f32 0x3F666666#32 * a + Ideal.ofBits .f32 0x3DCCCCCD#32 * x

/-- The combination H = c₁ · A + c₂ · X of two n-row arrays, entry by entry. -/
def blend (A X : FVec Ideal ⟨2, ![n, 128]⟩ .f32) : FVec Ideal ⟨2, ![n, 128]⟩ .f32 := fun e => mix (A e) (X e)

/-- Entry j of one result row, from that row of A and of X and the weight:
    d₁ · H j + d₂ · ∑ q, H q · W (q, j), with H q = c₁ · a q + c₂ · x q. -/
def entry {φ : FTy} (a x : Fin 128 → EReal) (W : FVec Ideal ⟨2, ![128, 128]⟩ φ) (j : Fin 128) : EReal :=
  Ideal.ofBits .f32 0x3F183370#32 * mix (a j) (x j)
    + Ideal.ofBits .f32 0x3ECF991F#32 * ∑ q : Fin 128, mix (a q) (x q) * W (ix2 q j)

/-- The layer's tail on n rows: row r of the result is `entry` of row r of A and of X. -/
def tail (n : Nat) {φ : FTy} (A X : FVec Ideal ⟨2, ![n, 128]⟩ .f32) (W : FVec Ideal ⟨2, ![128, 128]⟩ φ) :
    FVec Ideal ⟨2, ![n, 128]⟩ .f32 :=
  fun e => entry (fun q => A (ix2 (e 0) q)) (fun q => X (ix2 (e 0) q)) W (e 1)

/-- The tail at entry (r, j). -/
theorem tail_apply {φ : FTy} (A X : FVec Ideal ⟨2, ![n, 128]⟩ .f32) (W : FVec Ideal ⟨2, ![128, 128]⟩ φ)
    (r : Fin n) (j : Fin 128) :
    tail n A X W (ix2 r j) = entry (fun q => A (ix2 r q)) (fun q => X (ix2 r q)) W j := rfl

/-- The tail is computed row by row: if the k rows of A' and X' are the rows `ρ p` of A and X, the tail of A' and X'
    at entry (p, j) is the tail of A and X at entry (ρ p, j). -/
theorem tail_rows {k : Nat} {φ : FTy} (A X : FVec Ideal ⟨2, ![n, 128]⟩ .f32) (A' X' : FVec Ideal ⟨2, ![k, 128]⟩ .f32)
    (W W' : FVec Ideal ⟨2, ![128, 128]⟩ φ) (ρ : Fin k → Fin n)
    (hA : ∀ (p : Fin k) (q : Fin 128), A' (ix2 p q) = A (ix2 (ρ p) q))
    (hX : ∀ (p : Fin k) (q : Fin 128), X' (ix2 p q) = X (ix2 (ρ p) q)) (hW : W' = W) (p : Fin k) (j : Fin 128) :
    tail k A' X' W' (ix2 p j) = tail n A X W (ix2 (ρ p) j) := by
  subst hW
  rw [tail_apply, tail_apply, funext (hA p), funext (hX p)]

/-- Narrowing the weight to bf16 changes nothing at the ideal values: the tail over the narrowed weight is the tail
    over the weight. -/
theorem tail_narrowed (A X : FVec Ideal ⟨2, ![n, 128]⟩ .f32) (W : FVec Ideal ⟨2, ![128, 128]⟩ .f32)
    (h : FTy.bits .bf16 < FTy.bits .f32) :
    tail n (φ := .bf16) A X (truncf .bf16 W h) = tail n (φ := .f32) A X W := rfl

/-- An array that is d₁ · H + d₂ · P at every entry, with H the combination of A and X and P (r, j) the sum over q
    of H (r, q) · W (q, j), is the layer's tail. -/
theorem tail_of_product {φ : FTy} (A X : FVec Ideal ⟨2, ![n, 128]⟩ .f32) (W : FVec Ideal ⟨2, ![128, 128]⟩ φ)
    (H P : FVec Ideal ⟨2, ![n, 128]⟩ .f32) (hH : H = blend A X)
    (hP : ∀ (r : Fin n) (j : Fin 128), P (ix2 r j) = ∑ q : Fin 128, H (ix2 r q) * W (ix2 q j)) :
    (fun e => Ideal.ofBits .f32 0x3F183370#32 * H e + Ideal.ofBits .f32 0x3ECF991F#32 * P e) = tail n A X W := by
  subst hH
  funext e
  obtain ⟨r, j, rfl⟩ : ∃ (r : Fin n) (j : Fin 128), e = ix2 r j := ⟨e 0, e 1, eq_ix2 e⟩
  show _ * blend A X (ix2 r j) + _ * P (ix2 r j) = _
  rw [hP r j]
  rfl

/-- The tail as a TensorCore computes it on an n-row block: the combination, its rows narrowed to bf16 and multiplied
    by the bf16 weight into an all-zero accumulator, and the blend of the two with d₁ and d₂. At the ideal values the
    narrowing is the identity and the product at an entry is the plain sum. -/
theorem tail_of_matmul (A X : FVec Ideal ⟨2, ![n, 128]⟩ .f32) (W : FVec Ideal ⟨2, ![128, 128]⟩ .bf16)
    (prec : Option ContractPrecision) (h : FTy.bits .bf16 < FTy.bits .f32) :
    addf (mulf (broadcast ⟨2, ![n, 128]⟩ (Scalar.ofBits (F := Ideal) .f32 0x3F183370#32))
        (addf (mulf (broadcast ⟨2, ![n, 128]⟩ (Scalar.ofBits (F := Ideal) .f32 0x3F666666#32)) A)
          (mulf (broadcast ⟨2, ![n, 128]⟩ (Scalar.ofBits (F := Ideal) .f32 0x3DCCCCCD#32)) X)))
      (mulf (broadcast ⟨2, ![n, 128]⟩ (Scalar.ofBits (F := Ideal) .f32 0x3ECF991F#32))
        (FloatOps.matmul (DotDims.plain n 128 128) prec
          (truncf .bf16 (addf (mulf (broadcast ⟨2, ![n, 128]⟩ (Scalar.ofBits (F := Ideal) .f32 0x3F666666#32)) A)
            (mulf (broadcast ⟨2, ![n, 128]⟩ (Scalar.ofBits (F := Ideal) .f32 0x3DCCCCCD#32)) X)) h)
          W (constant ⟨2, ![n, 128]⟩ .f32 0x00000000#32)))
      = tail n A X W :=
  tail_of_product A X W (blend A X) _ rfl fun r j =>
    Cert.LibDotPlain.matmul_zero_plain n 128 128 prec (blend A X) W r j

end Cert.Tail
-- ==== Proof.RefTail.lean ====
/-
  The reference computes the layer's tail of its aggregate.

  After the gather-scale-scatter aggregation (the array the reference calls agg, a function of the node features and
  the edge list that is never opened here) the reference forms H = c₁ · agg + c₂ · x0 with two products and a sum, the
  matrix product H W on the host, and d₁ · H + d₂ · (H W). Read entry by entry — a splat constant is its constant at
  every index, a product and a sum of arrays are the product and the sum of the entries, and the host's plain matrix
  product at entry (r, j) is the sum over q of H (r, q) · W (q, j) — this is `Cert.Tail.tail` of agg, x0 and W.
-/
import proofs.«152735_j37022618092149_1_alg».proof.Proof.RefRead
import proofs.«152735_j37022618092149_1_alg».proof.Proof.Tail

noncomputable section

namespace Cert.RefTail

open Cert.ReferenceIdeal Cert.ReferenceIdeal.Gen Cert.ReferenceIdeal.ReadP Idealize.ShloMosaic Idealize.ShloMosaic.ValueIdx

/-- The reference's H is the initial-residual combination of its aggregate with the initial features. -/
theorem combination (x0 x1 : (⟨S100000x128, .f32⟩ : BufTy).Contents (Elt Ideal))
    (x3 : (⟨S2x1600000, .i32⟩ : BufTy).Contents (Elt Ideal)) :
    val_main_v48 (F := Ideal) x0 x1 x3 = Cert.Tail.blend (n := 100000) (val_main_v43 (F := Ideal) x0 x3) x1 := by
  funext e
  rw [val_main_v48_apply, val_main_v45_apply, val_main_v47_apply, val_main_v44_apply, val_main_v46_apply,
    val_main_cst_9_apply, val_main_cst_10_apply]
  rfl

/-- The reference's result is the layer's tail of its aggregate, the initial features and the weight. -/
theorem result_is_tail (x0 x1 : (⟨S100000x128, .f32⟩ : BufTy).Contents (Elt Ideal))
    (x2 : (⟨S128x128, .f32⟩ : BufTy).Contents (Elt Ideal)) (x3 : (⟨S2x1600000, .i32⟩ : BufTy).Contents (Elt Ideal)) :
    val_main_v54 (F := Ideal) x0 x1 x2 x3 = Cert.Tail.tail 100000 (φ := .f32) (val_main_v43 (F := Ideal) x0 x3) x1 x2 := by
  refine Eq.trans ?_ (Cert.Tail.tail_of_product (n := 100000) (φ := .f32) (val_main_v43 (F := Ideal) x0 x3) x1 x2
    (val_main_v48 (F := Ideal) x0 x1 x3) (val_main_v51 (F := Ideal) x0 x1 x2 x3) (combination x0 x1 x3) ?_)
  · funext e
    rw [val_main_v54_apply, val_main_v50_apply, val_main_v53_apply, val_main_v49_apply, val_main_v52_apply,
      val_main_cst_11_apply, val_main_cst_12_apply]
    rfl
  · intro r j
    unfold val_main_v51
    exact Cert.LibDotPlain.dotGeneral_plain 100000 128 128 none HostSchedule.single
      (val_main_v48 (F := Ideal) x0 x1 x3) x2 r j

end Cert.RefTail
-- ==== Proof.KernelHead.lean ====
/-
  What the kernel's region finds in the arrays it stages.

  Before its one region the kernel's program runs the same aggregation as the reference, operation for operation: the
  self-loops appended to the edge list, the degrees by a scatter-add of ones, their inverse square roots where
  positive, the two gathers of those and their product as the edge weights, the gather of the source rows, their
  scaling, and the scatter-add into the target rows. So the aggregated array the region stages as its first operand is
  the reference's aggregate, taken as ONE function of the node features and the edge list and never opened: the two
  programs' operation lists are compared as they stand, for any float values. The third staged array is the weight
  narrowed to bf16 on the host, which at the ideal values is the weight itself.
-/
import proofs.«152735_j37022618092149_1_alg».proof.Proof.Gen.KernelIdeal.Frame
import proofs.«152735_j37022618092149_1_alg».proof.Proof.RefRead

noncomputable section

namespace Cert.KernelHead

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

set_option maxHeartbeats 8000000 in
/-- The aggregated array as the region finds it is the reference's aggregate of the kernel's own node features and
    edge list. -/
theorem aggregate (c : Dev nD) :
    V m c main_v43 = Cert.ReferenceIdeal.ReadP.val_main_v43 (F := F) (m ((c : Thread nD τ).loc main_arg0))
      (m ((c : Thread nD τ).loc main_arg3)) := by
  dsimp only [V]
  simp only [hostOps0, hostOps0_1, hostOps0_2, List.flatten_cons, List.flatten_nil, List.append_nil, List.cons_append,
    List.nil_append]
  after_results_simp
  rfl

set_option maxHeartbeats 8000000 in
/-- The weight as the region finds it is the weight argument narrowed to bf16 on the host. -/
theorem weight (c : Dev nD) :
    V m c main_v44 = truncf .bf16 (m ((c : Thread nD τ).loc main_arg2)) bitsLt_bf16_f32 := by
  dsimp only [V]
  simp only [hostOps0, hostOps0_1, hostOps0_2, List.flatten_cons, List.flatten_nil, List.append_nil, List.cons_append,
    List.nil_append]
  after_results_simp

end Cert.KernelHead
-- ==== Proof.KernelTail.lean ====
/-
  The kernel's result array is the layer's tail of the arrays its region stages.

  The region runs on a grid of 20 points. At point t it stages rows 5000·t … 5000·t + 4999 of the aggregated array and
  of the initial features (two blocks of 5000 rows of 128) and the whole 128 × 128 weight, and writes back the same rows
  of the result. What the body stores is, of the three loaded blocks, exactly the layer's tail on 5000 rows
  (`stored`): the combination, its bf16 narrowing multiplied by the weight into a zero accumulator, and the blend.
  The tail is computed row by row, so the block a point writes back is that block of rows of the tail of the WHOLE
  arrays (`written`); every row lies in exactly one point's block (row r in point r / 5000: `covered`), hence the
  result array ends as the tail of the whole staged arrays (`result`).
-/
import proofs.«152735_j37022618092149_1_alg».proof.Proof.Gen.KernelIdeal.Value
import proofs.«152735_j37022618092149_1_alg».proof.Proof.Tail

noncomputable section

namespace Cert.KernelTail

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## What the body stores -/

/-- The value the body stores, as a function of its three loaded blocks, is the layer's tail on 5000 rows. -/
theorem stored (v0 v2 : FVec Ideal S5000x128 .f32) (v9 : FVec Ideal S128x128 .bf16) :
    k0_pay1 (F := Ideal) v0 v2 v9 = Cert.Tail.tail 5000 v0 v2 v9 := by
  unfold k0_pay1
  simp only [shapeCast_self]
  exact Cert.Tail.tail_of_matmul (n := 5000) v0 v2 v9 none bitsLt_bf16_f32

/-! ## The blocks a point reads and writes -/

theorem origin : (![0, 0] : Fin 2 → Nat) = fun _ => 0 := funext fun a => by fin_cases a <;> rfl

/-- The printed index maps over the grid: the two row-blocked inputs and the output are at block row t, block column
    0; the weight is at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point is one of 20. -/
theorem point_lt (t : Fin cfg0.N) : t.val < 20 := lt_of_lt_of_eq t.isLt N_0

/-- Row p of point t's blocks is row 5000·t + p of the arrays. -/
def row (t : Fin cfg0.N) (p : Fin 5000) : Fin 100000 :=
  ⟨t.val * 5000 + p.val, by have := point_lt t; have := p.isLt; omega⟩

/-- Entry (p, q) of the first operand's block at point t sits at entry (5000·t + p, q) of its array. -/
theorem at_aggregate (t : Fin cfg0.N) (p : Fin 5000) (q : Fin 128) :
    ((cfg0.win 0).blk t).view.emb (ix2 p q) = ix2 (row t p) q := by
  obtain ⟨e0, e1, -, -, -, -, -, -⟩ := block_indices t
  funext a
  apply Fin.ext
  match a with
  | ⟨0, _⟩ => show win0_0.index t (0 : Fin 2) * 5000 + 1 * p.val = t.val * 5000 + p.val; omega
  | ⟨1, _⟩ => show win0_0.index t (1 : Fin 2) * 128 + 1 * q.val = q.val; omega

/-- The same for the second operand's block. -/
theorem at_initial (t : Fin cfg0.N) (p : Fin 5000) (q : Fin 128) :
    ((cfg0.win 1).blk t).view.emb (ix2 p q) = ix2 (row t p) q := by
  obtain ⟨-, -, e0, e1, -, -, -, -⟩ := block_indices t
  funext a
  apply Fin.ext
  match a with
  | ⟨0, _⟩ => show win0_1.index t (0 : Fin 2) * 5000 + 1 * p.val = t.val * 5000 + p.val; omega
  | ⟨1, _⟩ => show win0_1.index t (1 : Fin 2) * 128 + 1 * q.val = q.val; omega

/-- Entry (a, b) of the weight's block sits at entry (a, b) of the weight, at every point. -/
theorem at_weight (t : Fin cfg0.N) (a b : Fin 128) :
    ((cfg0.win 2).blk t).view.emb (ix2 a b) = ix2 a b := by
  obtain ⟨-, -, -, -, e0, e1, -, -⟩ := block_indices t
  funext d
  apply Fin.ext
  match d with
  | ⟨0, _⟩ => show win0_2.index t (0 : Fin 2) * 128 + 1 * a.val = a.val; omega
  | ⟨1, _⟩ => show win0_2.index t (1 : Fin 2) * 128 + 1 * b.val = b.val; omega

/-- Entry (p, j) of the output's block at point t sits at entry (5000·t + p, j) of the result array. -/
theorem write_at (t : Fin cfg0.N) (p : Fin 5000) (j : Fin 128) :
    ((cfg0.win 3).blk t).view.emb (ix2 p j) = ix2 (row t p) j := by
  obtain ⟨-, -, -, -, -, -, e0, e1⟩ := block_indices t
  funext a
  apply Fin.ext
  match a with
  | ⟨0, _⟩ => show win0_3.index t (0 : Fin 2) * 5000 + 1 * p.val = t.val * 5000 + p.val; omega
  | ⟨1, _⟩ => show win0_3.index t (1 : Fin 2) * 128 + 1 * j.val = j.val; omega

/-- Point t's block of the first operand, read off ANY array G of its shape, is rows 5000·t … of G. -/
theorem rows_aggregate (G : FVec Ideal S100000x128 .f32) (t : Fin cfg0.N) (p : Fin 5000) (q : Fin 128) :
    ((cfg0.win 0).blk t).view.read (Elt Ideal) G (ix2 p q) = G (ix2 (row t p) q) := by
  show G (((cfg0.win 0).blk t).view.emb (ix2 p q)) = G (ix2 (row t p) q)
  rw [at_aggregate]

/-- The same for the second operand. -/
theorem rows_initial (G : FVec Ideal S100000x128 .f32) (t : Fin cfg0.N) (p : Fin 5000) (q : Fin 128) :
    ((cfg0.win 1).blk t).view.read (Elt Ideal) G (ix2 p q) = G (ix2 (row t p) q) := by
  show G (((cfg0.win 1).blk t).view.emb (ix2 p q)) = G (ix2 (row t p) q)
  rw [at_initial]

/-- The weight's block, read off ANY 128 × 128 array G, is G. -/
theorem all_weight (G : FVec Ideal S128x128 .bf16) (t : Fin cfg0.N) :
    ((cfg0.win 2).blk t).view.read (Elt Ideal) G = G := by
  funext y
  obtain ⟨a, b, rfl⟩ : ∃ (a b : Fin 128), y = ix2 a b := ⟨y 0, y 1, eq_ix2 y⟩
  show G (((cfg0.win 2).blk t).view.emb (ix2 a b)) = G (ix2 a b)
  rw [at_weight]

/-- Entry (p, q) of the aggregate's block at point t is entry (5000·t + p, q) of the aggregated array as the region
    finds it. -/
theorem read_aggregate (c : Dev nD) (t : Fin cfg0.N) (p : Fin 5000) (q : Fin 128) :
    iblk m c 0 t (ix2 p q) = V m c main_v43 (ix2 (row t p) q) := by
  unfold iblk
  exact rows_aggregate (V m c main_v43) t p q

/-- Entry (p, q) of the initial features' block at point t is entry (5000·t + p, q) of the initial features. -/
theorem read_initial (c : Dev nD) (t : Fin cfg0.N) (p : Fin 5000) (q : Fin 128) :
    iblk m c 1 t (ix2 p q) = V m c main_arg1 (ix2 (row t p) q) := by
  unfold iblk
  exact rows_initial (V m c main_arg1) t p q

/-- The weight's block at every point is the whole bf16 weight as the region finds it. -/
theorem read_weight (c : Dev nD) (t : Fin cfg0.N) : iblk m c 2 t = V m c main_v44 := by
  unfold iblk
  exact all_weight (V m c main_v44) t

/-! ## The result array -/

/-- Point t's block of the result array, read off ANY array G of its shape, is rows 5000·t … of G. -/
theorem rows_result (G : FVec Ideal S100000x128 .f32) (t : Fin cfg0.N) (p : Fin 5000) (j : Fin 128) :
    ((cfg0.win 3).blk t).view.read (Elt Ideal) G (ix2 p j) = G (ix2 (row t p) j) := by
  show G (((cfg0.win 3).blk t).view.emb (ix2 p j)) = G (ix2 (row t p) j)
  rw [write_at]

/-- The output's blocks are never cut at the array's end: what is written back of a staging buffer holding X is X. -/
theorem whole_block (X : FVec Ideal S5000x128 .f32) (t : Fin cfg0.N) (p : Fin 5000) (j : Fin 128) :
    (cfg0.win 3).cut (grid0.coords t) X (ix2 p j) = X (ix2 p j) := rfl

section AnyArrays

/-! For ANY three arrays A, X, W of which the region's blocks are the blocks of rows (`hA`, `hX`) and the whole
    (`hW`): the arrays the region really stages enter only where these are applied. -/

variable (c : Dev nD) (A X : FVec Ideal S100000x128 .f32) (W : FVec Ideal S128x128 .bf16)
variable (hA : ∀ (t : Fin cfg0.N) (p : Fin 5000) (q : Fin 128), iblk m c 0 t (ix2 p q) = A (ix2 (row t p) q))
variable (hX : ∀ (t : Fin cfg0.N) (p : Fin 5000) (q : Fin 128), iblk m c 1 t (ix2 p q) = X (ix2 (row t p) q))
variable (hW : ∀ t : Fin cfg0.N, iblk m c 2 t = W)

include hA hX hW in
/-- What point t writes back is its block of rows of the tail of the whole arrays. -/
theorem written (t : Fin cfg0.N) :
    (dats m 0 c).flushed 3 t = ((cfg0.win 3).blk t).view.read (Elt Ideal) (Cert.Tail.tail 100000 A X W) := by
  rw [Cert.KernelIdeal.Value.flushed3]
  unfold out0_3
  rw [View.canon_unit_zero origin]
  simp only [View.ld_unit_zero (S := S5000x128) origin, View.ld_unit_zero (S := S128x128) origin]
  rw [stored]
  funext y
  obtain ⟨p, j, rfl⟩ : ∃ (p : Fin 5000) (j : Fin 128), y = ix2 p j := ⟨y 0, y 1, eq_ix2 y⟩
  refine (whole_block (Cert.Tail.tail 5000 (φ := .bf16) (iblk m c 0 t) (iblk m c 1 t) (iblk m c 2 t)) t p j).trans ?_
  refine Eq.trans ?_ (rows_result (Cert.Tail.tail 100000 A X W) t p j).symm
  exact Cert.Tail.tail_rows (n := 100000) (k := 5000) (φ := .bf16) A X (iblk m c 0 t) (iblk m c 1 t) W (iblk m c 2 t)
    (row t) (hA t) (hX t) (hW t) p j

end AnyArrays

/-- An index of the result array is in point t's block iff each coordinate is in the block's range on its axis. -/
theorem in_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v45).slice (win0_3.rect t)).set ↔ _
  rw [View.set_slice_whole, Rect.mem_set_unit]
  exact Iff.rfl

/-- Every index of the result array lies in the block of the point its row belongs to. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, e0, e1⟩ := block_indices t
  refine ⟨t, flush0_3 t, ?_⟩
  rw [in_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- For any three arrays of which the region's blocks are the blocks, the result array ends as their tail. -/
theorem result_of (c : Dev nD) (A X : FVec Ideal S100000x128 .f32) (W : FVec Ideal S128x128 .bf16)
    (hA : ∀ (t : Fin cfg0.N) (p : Fin 5000) (q : Fin 128), iblk m c 0 t (ix2 p q) = A (ix2 (row t p) q))
    (hX : ∀ (t : Fin cfg0.N) (p : Fin 5000) (q : Fin 128), iblk m c 1 t (ix2 p q) = X (ix2 (row t p) q))
    (hW : ∀ t : Fin cfg0.N, iblk m c 2 t = W) :
    (dats m 0 c).arrAt 3 cfg0.N = Cert.Tail.tail 100000 A X W :=
  (dats m 0 c).arrAt_eq_of_cover 3 (Cert.Tail.tail 100000 A X W) (fun t _ => written m c A X W hA hX hW t) covered

/-- After the run the result array is the layer's tail of the whole arrays the region stages: the aggregated array,
    the initial features and the bf16 weight as the region finds them. -/
theorem result (c : Dev nD) :
    (dats m 0 c).arrAt 3 cfg0.N
      = Cert.Tail.tail 100000 (φ := .bf16) (V m c main_v43) (V m c main_arg1) (V m c main_v44) :=
  result_of m c _ _ _ (read_aggregate m c) (read_initial m c) (read_weight m c)

end Cert.KernelTail
-- ==== Proof.lean ====
/-
  One GCNII message-passing layer: the kernel and the reference compute the same array over the extended reals.

  Both programs first aggregate, with the same operations in the same order: to the 1,600,000 edges the 100,000
  self-loops are appended; the degree of a node is the number of edges that end in it; an edge's weight is the product of
  the inverse square roots of its two ends' degrees (zero where a degree is not positive); the source node's 128
  features, scaled by the weight, are summed into the target node's row. Call the result agg; it is a function of the
  node features x and the edge list, and it is the SAME function in both programs, so it is carried as one unopened
  function (Proof/KernelHead.lean).

  Then, with the f32 constants c₁, c₂ (nearest 0.9 and 0.1) and d₁, d₂ (nearest 1 − log 1.5 and log 1.5), both form

      H = c₁ · agg + c₂ · x0,      R = d₁ · H + d₂ · (H W).

  The reference does it on whole arrays with the host's matrix product (Proof/RefTail.lean). The kernel does it in one
  region on a grid of 20 points, 5000 rows at a time, narrowing H and W to bf16 for a matrix product into a zero
  accumulator; at the ideal values the narrowings are the identity and either product at entry (r, j) is
  ∑ q, H (r, q) · W (q, j), and since row r of R depends on row r of agg and x0 only, the 20 blocks written back are
  the blocks of R (Proof/KernelTail.lean). Both results are `Cert.Tail.tail` (Proof/Tail.lean) of agg, x0 and W. The
  four constants are the same bit patterns on both sides and no distributive law is needed, so the inputs' finiteness
  is never used.

  The three programs terminate without fault and leave their arguments unchanged: for the kernel, at the word level and
  at the ideal values, by the generated frame of its one region; for the reference by its run read back. The ideal
  pass rewrote no operation of the kernel, so there is nothing to preserve.
-/
import proofs.«152735_j37022618092149_1_alg».proof.Defs
import proofs.«152735_j37022618092149_1_alg».proof.Proof.Gen.Kernel
import proofs.«152735_j37022618092149_1_alg».proof.Proof.Gen.Kernel.Frame
import proofs.«152735_j37022618092149_1_alg».proof.Proof.Gen.KernelIdeal
import proofs.«152735_j37022618092149_1_alg».proof.Proof.Gen.KernelIdeal.Frame
import proofs.«152735_j37022618092149_1_alg».proof.Proof.Gen.KernelIdeal.Value
import proofs.«152735_j37022618092149_1_alg».proof.Proof.Gen.ReferenceIdeal
import proofs.«152735_j37022618092149_1_alg».proof.Proof.Gen.Pre_finite_inputs
import proofs.«152735_j37022618092149_1_alg».proof.Proof.RefRun
import proofs.«152735_j37022618092149_1_alg».proof.Proof.RefRead
import proofs.«152735_j37022618092149_1_alg».proof.Proof.Tail
import proofs.«152735_j37022618092149_1_alg».proof.Proof.RefTail
import proofs.«152735_j37022618092149_1_alg».proof.Proof.KernelHead
import proofs.«152735_j37022618092149_1_alg».proof.Proof.KernelTail
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-! ## The two results are one function of the arguments -/

/-- The common result on core `c`, from the kernel's arguments: the layer's tail of the aggregate of the node features
    and the edge list, the initial features and the weight. -/
def common (m : (ℓ : Loc Cert.KernelIdeal.nD Cert.KernelIdeal.τ Cert.KernelIdeal.sig) → Buf (Elt Ideal) ℓ)
    (c : Dev Cert.KernelIdeal.nD) : FVec Ideal ⟨2, ![100000, 128]⟩ .f32 :=
  Cert.Tail.tail 100000 (φ := .f32)
    (Cert.ReferenceIdeal.ReadP.val_main_v43 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg3)))
    (m ((c : Thread Cert.KernelIdeal.nD Cert.KernelIdeal.τ).loc Cert.KernelIdeal.main_arg1))
    (m ((c : Thread Cert.KernelIdeal.nD Cert.KernelIdeal.τ).loc Cert.KernelIdeal.main_arg2))

/-- The kernel's result array after its run: the staged arrays are the aggregate, the initial features as launched
    and the weight narrowed to bf16, which at the ideal values is the weight. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 3 Cert.KernelIdeal.cfg0.N = common m c := by
  rw [Cert.KernelTail.result m c, Cert.KernelHead.aggregate m c, Cert.KernelIdeal.Gen.V_main_arg1 m c,
    Cert.KernelHead.weight m c]
  unfold common
  exact Cert.Tail.tail_narrowed (n := 100000) _ _ _ _

/-- The reference's result after its run, from ITS arguments: the same tail. -/
theorem reference_result
    (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v54 m' c = Cert.Tail.tail 100000 (φ := .f32)
      (Cert.ReferenceIdeal.ReadP.val_main_v43 (F := Ideal)
        (m' ((c : Thread Cert.ReferenceIdeal.nD Cert.ReferenceIdeal.τ).loc Cert.ReferenceIdeal.main_arg0))
        (m' ((c : Thread Cert.ReferenceIdeal.nD Cert.ReferenceIdeal.τ).loc Cert.ReferenceIdeal.main_arg3)))
      (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2)) :=
  (Cert.ReferenceIdeal.ReadP.val_main_v54_eq m' c).trans (Cert.RefTail.result_is_tail _ _ _ _)

/-! ## The claims -/

/-- From memories that agree on the four arguments both programs end with the common result. -/
theorem algebraic : Cert.algebraic_KernelIdeal_ReferenceIdeal := by
  intro m ρ m' ρ' _ hagree
  refine ⟨fun c => common m c, ?_, ?_⟩
  · exact (θ_run Cert.KernelIdeal.defs _ _).mono (fun r h c => ⟨(h c).1.trans (kernel_result m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.ValueP.run (F := Ideal) m' ρ')
    rw [reference_result m' c, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
